-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x128 .f32) (main_arg1 : IVec S2x800000 32) (main_arg2 : FVec F S64x128 .f32) (main_arg3 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50176x128 : Shape := ⟨2, ![50176, 128]⟩
abbrev S50176x64 : Shape := ⟨2, ![50176, 64]⟩
abbrev S1024x128 : Shape := ⟨2, ![1024, 128]⟩
abbrev S1024x64 : Shape := ⟨2, ![1024, 64]⟩
abbrev S128x64 : Shape := ⟨2, ![128, 64]⟩
abbrev S1x64 : Shape := ⟨2, ![1, 64]⟩
abbrev S50000x64 : Shape := ⟨2, ![50000, 64]⟩

abbrev nBuf : Space → Nat
  | .hbm => 81
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S64x128, .f32⟩
  | .hbm, ⟨3, _⟩ => ⟨S64, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S850000x1, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x128, .f32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S850000x1, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x128, .f32⟩
  | .hbm, ⟨70, _⟩ => ⟨S850000x128, .f32⟩
  | .hbm, ⟨71, _⟩ => ⟨S850000x128, .f32⟩
  | .hbm, ⟨72, _⟩ => ⟨S_, .f32⟩
  | .hbm, ⟨73, _⟩ => ⟨S50000x128, .f32⟩
  | .hbm, ⟨74, _⟩ => ⟨S850000x1, .i32⟩
  | .hbm, ⟨75, _⟩ => ⟨S50000x128, .f32⟩
  | .hbm, ⟨76, _⟩ => ⟨S_, .i32⟩
  | .hbm, ⟨77, _⟩ => ⟨S_, .f32⟩
  | .hbm, ⟨78, _⟩ => ⟨S50176x128, .f32⟩
  | .hbm, ⟨79, _⟩ => ⟨S50176x64, .f32⟩
  | .hbm, ⟨80, _⟩ => ⟨S50000x64, .f32⟩
  | .local _ .vmem, ⟨0, _⟩ => ⟨S1024x128, .f32⟩
  | .local _ .vmem, ⟨1, _⟩ => ⟨S1024x128, .f32⟩
  | .local _ .vmem, ⟨2, _⟩ => ⟨S64x128, .f32⟩
  | .local _ .vmem, ⟨3, _⟩ => ⟨S64, .f32⟩
  | .local _ .vmem, ⟨4, _⟩ => ⟨S1024x64, .f32⟩
  | .local _ .vmem, ⟨5, _⟩ => ⟨S1024x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_12 : Ref sig .tc := ⟨.hbm, 76, rfl⟩
abbrev main_call1_v0 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  pads_S50000x128_S50176x128_01760_000 : S50000x128.Pads (![0, 0] : Fin 2 → Nat) ![176, 0] ![0, 0] S50176x128
  h_S_ : 0 < S_.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  slices_S50176x64_S50000x64_0_0 : S50176x64.Slices ![0, 0] S50000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S1024x128_S128x64_S1024x64_1_0_0_1_n_n_wf : DotDims.WF S1024x128 S128x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S50176x128.size a
  hwx0_0 : ∀ i : grid0.Coords, EltTy.bits .f32 = 32 ∨ (Rect.block (s := S50176x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S50176x64.size a
  hwx0_3 : ∀ i : grid0.Coords, EltTy.bits .f32 = 32 ∨ (Rect.block (s := S50176x64) S1024x64.size (cc0_transform_3 i) (hinb0_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

abbrev win0_0 : Pipeline.Window sig grid0 :=
  Pipeline.Window.ofSpec (Memref.whole main_v56) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v57) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S64x128, .f32⟩
  | .hbm, ⟨3, _⟩ => ⟨S64, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S850000x1, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x128, .f32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S850000x1, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x128, .f32⟩
  | .hbm, ⟨70, _⟩ => ⟨S850000x128, .f32⟩
  | .hbm, ⟨71, _⟩ => ⟨S850000x128, .f32⟩
  | .hbm, ⟨72, _⟩ => ⟨S_, .f32⟩
  | .hbm, ⟨73, _⟩ => ⟨S50000x128, .f32⟩
  | .hbm, ⟨74, _⟩ => ⟨S850000x1, .i32⟩
  | .hbm, ⟨75, _⟩ => ⟨S50000x128, .f32⟩
  | .hbm, ⟨76, _⟩ => ⟨S128x64, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Affine.lean ====
/-
  The function both programs compute after the shared propagation: an affine map applied row by row.
  For a matrix `h` of `n` rows and 128 columns, a weight matrix `W` of 64 rows and 128 columns and a bias
  `b` of 64 entries, entry `(p, q)` of the result is the inner product of row `p` of `h` with row `q` of `W`,
  plus `b q`: `(h · Wᵀ + b) p q = Σ_k h p k · W q k + b q`, over the extended reals. A row of the result depends on
  the same row of `h` only, so rows appended below `h` change no earlier row of the result.
-/
import Idealize.ShloMosaic.Lib.ValueIdx
import Idealize.ShloMosaic.PureOps.Ideal.Laws

noncomputable section

namespace Cert.Affine

open Idealize.ShloMosaic Idealize.ShloMosaic.ValueIdx

/-- `h · Wᵀ + b`, entry by entry: row `p` of `h` against row `q` of `W`, plus `b q`. -/
def affine {n : Nat} (h : (⟨2, ![n, 128]⟩ : Shape).Idx → EReal) (W : (⟨2, ![64, 128]⟩ : Shape).Idx → EReal)
    (b : (⟨1, ![64]⟩ : Shape).Idx → EReal) : (⟨2, ![n, 64]⟩ : Shape).Idx → EReal :=
  fun i => (∑ k : Fin 128, h (ix2 (n0 := n) (i 0) k) * W (ix2 (n0 := 64) (i 1) k)) + b (ix1 (n := 64) (i 1))

/-- The entry at explicit coordinates. -/
theorem affine_apply {n : Nat} (h : (⟨2, ![n, 128]⟩ : Shape).Idx → EReal) (W : (⟨2, ![64, 128]⟩ : Shape).Idx → EReal)
    (b : (⟨1, ![64]⟩ : Shape).Idx → EReal) (p : Fin n) (q : Fin 64) :
    affine h W b (ix2 p q) = (∑ k : Fin 128, h (ix2 p k) * W (ix2 q k)) + b (ix1 q) := rfl

/-- Row `p` of the result reads row `p` of `h` only: two matrices, of any numbers of rows, that agree on a row
    give the same row of the result. -/
theorem affine_row_congr {n n' : Nat} (h : (⟨2, ![n, 128]⟩ : Shape).Idx → EReal) (h' : (⟨2, ![n', 128]⟩ : Shape).Idx → EReal)
    (W : (⟨2, ![64, 128]⟩ : Shape).Idx → EReal) (b : (⟨1, ![64]⟩ : Shape).Idx → EReal) (p : Fin n) (p' : Fin n') (q : Fin 64)
    (hrow : ∀ k : Fin 128, h (ix2 p k) = h' (ix2 p' k)) :
    affine h W b (ix2 p q) = affine h' W b (ix2 p' q) := by
  rw [affine_apply, affine_apply]
  exact congrArg (· + b (ix1 q)) (Finset.sum_congr rfl fun k _ => by rw [hrow k])

end Cert.Affine

end
-- ==== Proof.RefValue.lean ====
/-
  The reference's result as the affine map of the propagated features. The reference ends with a product of the
  propagated features `h` (50000 × 128) with the transposed weights, contracting the 128 shared coordinates, and the
  bias broadcast over the rows: entry `(p, q)` is `Σ_k h p k · W q k + b q`. The propagated features themselves are
  kept as one unopened term.
-/
import proofs.«142984_j45483703665112_1_alg».proof.Proof.RefRead
import proofs.«142984_j45483703665112_1_alg».proof.Proof.Affine

noncomputable section

namespace Cert.ReferenceIdeal.RefValue

open Cert.ReferenceIdeal Cert.ReferenceIdeal.ReadP Idealize.ShloMosaic Idealize.ShloMosaic.ValueIdx Cert.Affine

/-- The reference's last stage is `h · Wᵀ + b` of its propagated features, the weights and the bias. -/
theorem result_eq (x0 : (⟨S50000x128, .f32⟩ : BufTy).Contents (Elt Ideal)) (x1 : (⟨S2x800000, .i32⟩ : BufTy).Contents (Elt Ideal))
    (x2 : (⟨S64x128, .f32⟩ : BufTy).Contents (Elt Ideal)) (x3 : (⟨S64, .f32⟩ : BufTy).Contents (Elt Ideal)) :
    val_main_v60 (F := Ideal) x0 x1 x2 x3 = affine (n := 50000) (val_main_v55 (F := Ideal) x0 x1) x2 x3 := by
  funext i
  obtain ⟨p, q, rfl⟩ : ∃ (p : Fin 50000) (q : Fin 64), i = ix2 p q := ⟨i 0, i 1, eq_ix2 i⟩
  rw [val_main_v60_apply, val_main_v57_apply, val_main_v59_apply, val_main_v58_apply, affine_apply]
  refine congrArg₂ (· + ·) (Finset.sum_congr rfl fun k _ => congrArg₂ (· * ·) ?_ ?_) ?_
  · exact congrArg _ (funext fun a => Fin.ext (by match a with | ⟨0, _⟩ => rfl | ⟨1, _⟩ => rfl))
  · rw [val_main_v56_apply]
    exact congrArg x2 (funext fun a => Fin.ext (by match a with | ⟨0, _⟩ => rfl | ⟨1, _⟩ => rfl))
  · exact congrArg x3 (funext fun a => Fin.ext (by match a with | ⟨0, _⟩ => rfl))

end Cert.ReferenceIdeal.RefValue

end
-- ==== Proof.Payload.lean ====
/-
  The kernel body's stored value, read at an entry. On a block of 1024 rows `x` (1024 × 128), the whole weight
  matrix `W` (64 × 128) and the whole bias `b` (64 entries) the body stores `x · Wᵀ + b`: the narrowing of both
  operands to a shorter float format is the identity on extended reals, the product accumulates into zero, and the
  bias row is broadcast over the rows. So entry `(p, q)` of the stored block is `Σ_k x p k · W q k + b q`.
-/
import proofs.«142984_j45483703665112_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The product's operand indices, axis by axis -/

theorem lhs_axis0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem lhs_axis1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
theorem rhs_axis0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
theorem rhs_axis1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

/-- A 1024 × 128 by 128 × 64 product accumulated into zero, at entry `(p, q)`: the sum over the 128 shared
    coordinates of the left operand's row `p` times the right operand's column `q`. -/
theorem product_apply (l : FVec Ideal S1024x128 .bf16) (r : FVec Ideal S128x64 .bf16) (p : Fin 1024) (q : Fin 64) :
    matmul (F := Ideal) dot_S1024x128_S128x64_S1024x64_1_0_0_1_n_n none l r (constant (F := Ideal) S1024x64 .f32 0x00000000#32) (ix2 p q)
      = ∑ k : Fin 128, l (ix2 p k) * r (ix2 k q) := by
  simp only [matmul]
  rw [Ideal.matmul_constant_zero_apply, ← Equiv.sum_comp (ValueIdx.contrEquiv1 dot_S1024x128_S128x64_S1024x64_1_0_0_1_n_n 128 rfl rfl).symm]
  refine Finset.sum_congr rfl fun k _ => ?_
  have hk := ValueIdx.contrEquiv1_symm_val dot_S1024x128_S128x64_S1024x64_1_0_0_1_n_n 128 rfl rfl k
  have el : dot_S1024x128_S128x64_S1024x64_1_0_0_1_n_n.lhsIdx (ix2 p q) ((ValueIdx.contrEquiv1 dot_S1024x128_S128x64_S1024x64_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S1024x128_S128x64_S1024x64_1_0_0_1_n_n.rhsIdx (ix2 p q) ((ValueIdx.contrEquiv1 dot_S1024x128_S128x64_S1024x64_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The stored block at entry `(p, q)`: row `p` of the loaded block against row `q` of the weights, plus the
    bias at `q`. -/
theorem stored_apply (x0 : Vec Ideal S1024x128 .f32) (x1 : Vec Ideal S64x128 .f32) (x2 : Vec Ideal S64 .f32) (p : Fin 1024) (q : Fin 64) :
    k0_pay1 (F := Ideal) x0 x1 x2 (ix2 p q) = (∑ k : Fin 128, x0 (ix2 p k) * x1 (ix2 q k)) + x2 (ix1 q) := by
  unfold k0_pay1
  refine (addf_apply _ _ _).trans ?_
  refine congrArg₂ (· + ·) ?_ ?_
  · refine (product_apply _ _ p q).trans ?_
    refine Finset.sum_congr rfl fun k _ => ?_
    refine congrArg₂ (· * ·) ?_ ?_
    · exact congrFun (shapeCast_self x0 shapeCasts_S1024x128_S1024x128) (ix2 p k)
    · exact transpose_ix2_apply _ transposes_S64x128_p1_0_S128x64 k q
  · exact (broadcastTo_1b_ab_apply _ broadcasts_S1x64_S1024x64 p q).trans (shapeCast_a_1a_apply x2 shapeCasts_S64_S1x64 0 q)

end Cert.KernelIdeal.Body

end
-- ==== Proof.KernelArray.lean ====
/-
  The kernel's output array after the region. The grid has 49 points; point `t` loads rows `1024 t … 1024 t + 1023`
  of the padded matrix (50176 × 128), the whole weight matrix and the whole bias, and writes back rows
  `1024 t … 1024 t + 1023` of the output (50176 × 64). Each written block is the same rows of `h · Wᵀ + b` of the
  arrays the region finds, and the 49 blocks tile the output, so the output array ends as `h · Wᵀ + b` whole.
-/
import proofs.«142984_j45483703665112_1_alg».proof.Proof.Gen.KernelIdeal.Frame
import proofs.«142984_j45483703665112_1_alg».proof.Proof.Payload
import proofs.«142984_j45483703665112_1_alg».proof.Proof.Affine
import Idealize.ShloMosaic.Lib.Pipeline.Value

noncomputable section

namespace Cert.KernelIdeal.Arr

open Cert.KernelIdeal Cert.KernelIdeal.Gen Idealize.ShloMosaic Idealize.ShloMosaic.TcCoe Idealize.SL.Sem
open Idealize.ShloMosaic.ValueIdx Cert.Affine
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The padded matrix, the weights and the bias as the region finds them. -/
abbrev hpad (c : Dev nD) : (⟨2, ![50176, 128]⟩ : Shape).Idx → EReal := V m c main_v56
abbrev wts (c : Dev nD) : (⟨2, ![64, 128]⟩ : Shape).Idx → EReal := V m c main_arg2
abbrev bias (c : Dev nD) : (⟨1, ![64]⟩ : Shape).Idx → EReal := V m c main_arg3

/-- The block index maps over the grid: the matrix's and the output's blocks move down the rows with the point,
    the weights' and the bias' stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Point `t`'s block of the padded matrix, at `(p, k)`, is the matrix at row `1024 t + p`. -/
theorem hblk_apply (c : Dev nD) (t : Fin cfg0.N) (p : Fin 1024) (k : Fin 128) (r : Fin 50176) (hr : r.val = t.val * 1024 + p.val) :
    (iblk m c 0 t : Vec Ideal S1024x128 .f32) (ix2 p k) = hpad m c (ix2 r k) := by
  obtain ⟨e0, e1, -⟩ := idx_facts t
  unfold iblk
  rw [View.read_apply]
  show V m c main_v56 _ = V m c main_v56 _
  congr 1
  funext a
  apply Fin.ext
  match a with
  | ⟨0, _⟩ => show win0_0.index t 0 * 1024 + 1 * p.val = r.val; rw [e0, hr]; omega
  | ⟨1, _⟩ => show win0_0.index t 1 * 128 + 1 * k.val = k.val; rw [e1]; omega

/-- Every point's block of the weights is the weights. -/
theorem wblk_apply (c : Dev nD) (t : Fin cfg0.N) (q : Fin 64) (k : Fin 128) :
    (iblk m c 1 t : Vec Ideal S64x128 .f32) (ix2 q k) = wts m c (ix2 q k) := by
  obtain ⟨-, -, e2, e3, -⟩ := idx_facts t
  unfold iblk
  rw [View.read_apply]
  show V m c main_arg2 _ = V m c main_arg2 _
  congr 1
  funext a
  apply Fin.ext
  match a with
  | ⟨0, _⟩ => show win0_1.index t 0 * 64 + 1 * q.val = q.val; rw [e2]; omega
  | ⟨1, _⟩ => show win0_1.index t 1 * 128 + 1 * k.val = k.val; rw [e3]; omega

/-- Every point's block of the bias is the bias. -/
theorem bblk_apply (c : Dev nD) (t : Fin cfg0.N) (q : Fin 64) :
    (iblk m c 2 t : Vec Ideal S64 .f32) (ix1 q) = bias m c (ix1 q) := by
  obtain ⟨-, -, -, -, e4, -⟩ := idx_facts t
  unfold iblk
  rw [View.read_apply]
  show V m c main_arg3 _ = V m c main_arg3 _
  congr 1
  funext a
  apply Fin.ext
  match a with
  | ⟨0, _⟩ => show win0_2.index t 0 * 64 + 1 * q.val = q.val; rw [e4]; omega

/-- Entry `(p, q)` of point `t`'s output block sits at row `1024 t + p`, column `q` of the output array. -/
theorem out_emb (t : Fin cfg0.N) (p : Fin 1024) (q : Fin 64) (r : Fin 50176) (hr : r.val = t.val * 1024 + p.val) :
    ((cfg0.win 3).blk t).view.emb (ix2 p q : S1024x64.Idx) = (ix2 r q : S50176x64.Idx) := by
  obtain ⟨-, -, -, -, -, e5, e6⟩ := idx_facts t
  funext a
  apply Fin.ext
  match a with
  | ⟨0, _⟩ => show win0_3.index t 0 * 1024 + 1 * p.val = r.val; rw [e5, hr]; omega
  | ⟨1, _⟩ => show win0_3.index t 1 * 64 + 1 * q.val = q.val; rw [e6]; omega

/-- WHAT POINT `t` WRITES BACK is block `t` of `h · Wᵀ + b` of the arrays the region finds. -/
theorem flushed_eq (c : Dev nD) (t : Fin cfg0.N) :
    (dats m 0 c).flushed 3 t
      = ((cfg0.win 3).blk t).view.read (Elt Ideal) (affine (n := 50176) (hpad m c) (wts m c) (bias m c)) := by
  show (cfg0.win 3).cut (grid0.coords t) ((dats m 0 c).after 3 t) = _
  rw [after0_3]
  unfold out0_3
  rw [View.canon_unit_zero hz2]
  simp only [View.ld_unit_zero (S := S1024x128) hz2, View.ld_unit_zero (S := S64x128) hz2, View.ld_unit_zero (S := S64) hz1]
  funext j
  obtain ⟨p, q, rfl⟩ : ∃ (p : Fin 1024) (q : Fin 64), j = (ix2 p q : S1024x64.Idx) := ⟨j 0, j 1, eq_ix2 j⟩
  have hN : cfg0.N = 49 := N_0
  have ht : t.val < 49 := hN ▸ t.isLt
  obtain ⟨r, hr⟩ : ∃ r : Fin 50176, r.val = t.val * 1024 + p.val := ⟨⟨t.val * 1024 + p.val, by have := p.isLt; omega⟩, rfl⟩
  show k0_pay1 (F := Ideal) (iblk m c 0 t) (iblk m c 1 t) (iblk m c 2 t) (ix2 p q)
    = affine (n := 50176) (hpad m c) (wts m c) (bias m c) (((cfg0.win 3).blk t).view.emb (ix2 p q : S1024x64.Idx))
  rw [out_emb t p q r hr, affine_apply]
  refine (Body.stored_apply (iblk m c 0 t) (iblk m c 1 t) (iblk m c 2 t) p q).trans ?_
  refine congrArg₂ (· + ·) (Finset.sum_congr rfl fun k _ => congrArg₂ (· * ·) ?_ ?_) ?_
  · exact hblk_apply m c t p k r hr
  · exact wblk_apply m c t q k
  · exact bblk_apply m c t q

/-- An index of the output array is in point `t`'s block iff each coordinate is in the block's range on its axis. -/
theorem mem_blk (t : Fin cfg0.N) (i : S50176x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v57).slice (win0_3.rect t)).set ↔ _
  rw [View.set_slice_whole, Rect.mem_set_unit]
  exact Iff.rfl

/-- The 49 blocks of 1024 rows tile the 50176 rows: row `r` is in point `r / 1024`'s block. -/
theorem cover (i : S50176x64.Idx) : ∃ t : Fin cfg0.N, (cfg0.win 3).flush t = true ∧ i ∈ ((cfg0.win 3).blk t).view.set := by
  have hi0 : (i 0).val < 50176 := (i 0).isLt
  have hi1 : (i 1).val < 64 := (i 1).isLt
  have hN : cfg0.N = 49 := N_0
  obtain ⟨t, ht⟩ : ∃ t : Fin cfg0.N, t.val = (i 0).val / 1024 := ⟨⟨(i 0).val / 1024, by rw [hN]; omega⟩, rfl⟩
  obtain ⟨-, -, -, -, -, e5, e6⟩ := idx_facts t
  refine ⟨t, flush0_3 t, ?_⟩
  rw [mem_blk]
  intro a
  match a with
  | ⟨0, _⟩ => show win0_3.index t 0 * 1024 ≤ (i 0).val ∧ (i 0).val < win0_3.index t 0 * 1024 + 1024; rw [e5, ht]; omega
  | ⟨1, _⟩ => show win0_3.index t 1 * 64 ≤ (i 1).val ∧ (i 1).val < win0_3.index t 1 * 64 + 64; rw [e6]; omega

/-- THE OUTPUT ARRAY after the region: `h · Wᵀ + b` of the padded matrix, the weights and the bias. -/
theorem final (c : Dev nD) :
    (dats m 0 c).arrAt 3 cfg0.N = affine (n := 50176) (hpad m c) (wts m c) (bias m c) :=
  (dats m 0 c).arrAt_eq_of_cover 3 _ (fun t _ => flushed_eq m c t) cover

end Cert.KernelIdeal.Arr

end
-- ==== Proof.KernelHost.lean ====
/-
  The host operations around the kernel's region. Before the region the program computes the propagated
  features (50000 × 128) from the node features and the edge list, by the same operations in the same order as
  the reference, and appends 176 rows of a constant below them (50176 × 128). After the region it keeps the first
  50000 rows of the region's output.
-/
import proofs.«142984_j45483703665112_1_alg».proof.Proof.Gen.KernelIdeal.Frame
import proofs.«142984_j45483703665112_1_alg».proof.Proof.RefRead
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The matrix the region reads: the propagated features of the launch arguments, the very term the reference
    computes them by, with 176 constant rows appended. -/
theorem padded_eq (c : Dev nD) :
    (V m c main_v56 : S50176x128.Idx → Elt F .f32)
      = pad S50176x128 ![0, 0] ![176, 0] ![0, 0]
          (Cert.ReferenceIdeal.ReadP.val_main_v55 (F := F) (m ((c : Thread nD τ).loc main_arg0)) (m ((c : Thread nD τ).loc main_arg1)))
          (sitofp (F := F) .f32 (constantI S_ 32 0#32)) pads_S50000x128_S50176x128_01760_000 h_S_ := by
  dsimp only [V, V0]
  simp only [hostOps0, hostOps0_1, hostOps0_2, hostOps0_3, List.flatten_cons, List.flatten_nil, List.append_nil, List.cons_append,
    List.nil_append]
  after_results_simp
  simp only [TRef.ofBuf, TRef.toBuf, cast_eq]
  rfl

/-- The program's result: the first 50000 rows of the output array the region leaves. -/
theorem result_eq (c : Dev nD) :
    Pipeline.afterTail₀ cfgs (dats m) 0 (V0 m) [hostOps1] c main_v58
      = extractStridedSlice S50000x64 ![0, 0] ((dats m 0 c).arrAt 3 cfg0.N) slices_S50176x64_S50000x64_0_0 := by
  unfold Pipeline.afterTail₀
  show StableHlo.after hostOps1 _ (Proc.devRef .tc main_v58) = _
  after_results
  exact congrArg (fun X => extractStridedSlice S50000x64 ![0, 0] X slices_S50176x64_S50000x64_0_0)
    (Pipeline.withArrays_arr spec0 launch0.win.arr_inj c _ _ 3)

end Cert.KernelIdeal.HostSide

end
-- ==== Proof.KernelRun.lean ====
/-
  The idealized kernel's run, read: its result array is `h · Wᵀ + b` of the propagated features `h`, the weights
  `W` and the bias `b`. The region leaves `h' · Wᵀ + b` of the padded matrix `h'` (the rows of `h`, then 176 constant
  rows); a row of that product reads the same row of `h'` only, the first 50000 rows of `h'` are the rows of `h`, and
  the program keeps exactly those rows of the product: the constant rows reach no kept entry.
-/
import proofs.«142984_j45483703665112_1_alg».proof.Proof.KernelArray
import proofs.«142984_j45483703665112_1_alg».proof.Proof.KernelHost
import proofs.«142984_j45483703665112_1_alg».proof.Proof.Affine
import Idealize.ShloMosaic.Lib.KernelVsHost
import Idealize.ShloMosaic.Lib.ValueLayout

noncomputable section

namespace Cert.KernelIdeal.Run

open Cert.KernelIdeal Cert.KernelIdeal.Gen Idealize.ShloMosaic Idealize.ShloMosaic.TcCoe Idealize.SL.Sem
open Idealize.ShloMosaic.ValueIdx Cert.Affine
open Idealize.ShloMosaic.Pipeline (Dat)

variable (m : (ℓ : Loc nD τ sig) → Buf (Elt Ideal) ℓ) (ρ : Dev nD → PrngReg)

/-- The propagated features of the launch arguments, as one unopened term (the reference's own). -/
abbrev feats (c : Dev nD) : (⟨2, ![50000, 128]⟩ : Shape).Idx → EReal :=
  Cert.ReferenceIdeal.ReadP.val_main_v55 (F := Ideal) (m ((c : Thread nD τ).loc main_arg0)) (m ((c : Thread nD τ).loc main_arg1))

/-- Row `p < 50000` of the padded matrix is row `p` of the propagated features. -/
theorem hpad_row (c : Dev nD) (p : Fin 50000) (r : Fin 50176) (hr : r.val = p.val) (k : Fin 128) :
    Arr.hpad m c (ix2 r k) = feats m c (ix2 p k) := by
  show (V m c main_v56 : S50176x128.Idx → Elt Ideal .f32) (ix2 r k) = _
  rw [HostSide.padded_eq m c]
  refine pad_apply_of_inside _ _ _ _ _ _ _ (ix2 r k) (ix2 p k) fun a => ?_
  match a with
  | ⟨0, _⟩ => show r.val = 0 + p.val * (0 + 1); omega
  | ⟨1, _⟩ => show k.val = 0 + k.val * (0 + 1); omega

/-- The program's result is `h · Wᵀ + b` of the propagated features and the launch's weights and bias. -/
theorem result (c : Dev nD) :
    Pipeline.afterTail₀ cfgs (dats m) 0 (V0 m) [hostOps1] c main_v58
      = affine (n := 50000) (feats m c) (m ((c : Thread nD τ).loc main_arg2)) (m ((c : Thread nD τ).loc main_arg3)) := by
  rw [HostSide.result_eq m c, Arr.final m c]
  have e2 : Arr.wts m c = m ((c : Thread nD τ).loc main_arg2) := V_main_arg2 m c
  have e3 : Arr.bias m c = m ((c : Thread nD τ).loc main_arg3) := V_main_arg3 m c
  rw [e2, e3]
  funext i
  obtain ⟨p, q, rfl⟩ : ∃ (p : Fin 50000) (q : Fin 64), i = ix2 p q := ⟨i 0, i 1, eq_ix2 i⟩
  refine (slice2_axis0_eq 0 _ slices_S50176x64_S50000x64_0_0 p q).trans ?_
  exact affine_row_congr _ _ _ _ _ p q fun k => hpad_row m c p _ (by simp) k

/-- THE RUN: every weakly fair execution ends with the result array at `h · Wᵀ + b` and the arguments unchanged. -/
theorem run : θ_run defs (onTc (τ := τ) (main (F := Ideal))) ⟨m, fun _ => 0, ρ⟩ fun r => ∀ c : Dev nD,
      r.2.mem ((c : Thread nD τ).loc main_v58)
        = affine (n := 50000) (feats m c) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v58 (Pipeline.mem_restRefs_of main_v58 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.Run

end
-- ==== Proof.lean ====
/-
  Equivalence over the extended reals of a graph-propagation kernel against its reference.

  Both programs first propagate the node features over the graph twice (degree normalisation, gather, scatter-add),
  by the same host operations in the same order: the propagated features `h` (50000 × 128) are one term on both
  sides and are never opened. They differ in the last layer, `h · Wᵀ + b` (weights 64 × 128, bias 64):
  the reference takes one product of `h` with the transposed weights and adds the bias broadcast over the rows; the
  kernel appends 176 constant rows to `h`, computes the layer in 49 blocks of 1024 rows on the device (both operands
  narrowed to a shorter float format, which is the identity on extended reals; the product accumulated into zero),
  and keeps the first 50000 rows. Entry `(p, q)` is `Σ_k h p k · W q k + b q` on both sides: a row of the layer's
  output reads the same row of its input only, so the appended rows reach no kept entry, and the two sums range over
  the same 128 products in the same index set. No law that needs finiteness is used: the precondition is never opened.
-/
import proofs.«142984_j45483703665112_1_alg».proof.Defs
import proofs.«142984_j45483703665112_1_alg».proof.Proof.Gen.Kernel
import proofs.«142984_j45483703665112_1_alg».proof.Proof.Gen.Kernel.Skeleton
import proofs.«142984_j45483703665112_1_alg».proof.Proof.Gen.Kernel.Launch
import proofs.«142984_j45483703665112_1_alg».proof.Proof.Gen.Kernel.Points
import proofs.«142984_j45483703665112_1_alg».proof.Proof.Gen.Kernel.Frame
import proofs.«142984_j45483703665112_1_alg».proof.Proof.Gen.KernelIdeal
import proofs.«142984_j45483703665112_1_alg».proof.Proof.Gen.KernelIdeal.Skeleton
import proofs.«142984_j45483703665112_1_alg».proof.Proof.Gen.KernelIdeal.Launch
import proofs.«142984_j45483703665112_1_alg».proof.Proof.Gen.KernelIdeal.Points
import proofs.«142984_j45483703665112_1_alg».proof.Proof.Gen.KernelIdeal.Frame
import proofs.«142984_j45483703665112_1_alg».proof.Proof.Gen.ReferenceIdeal
import proofs.«142984_j45483703665112_1_alg».proof.Proof.Gen.Pre_finite_inputs
import proofs.«142984_j45483703665112_1_alg».proof.Proof.RefRun
import proofs.«142984_j45483703665112_1_alg».proof.Proof.RefRead
import proofs.«142984_j45483703665112_1_alg».proof.Proof.RefValue
import proofs.«142984_j45483703665112_1_alg».proof.Proof.KernelRun
import Idealize.ShloMosaic.Adequacy
import Idealize.ShloMosaic.Init

noncomputable section

namespace Cert.Proof

open Idealize.ShloMosaic Idealize.SL.Sem

/-- The word-level kernel terminates without a fault and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with `h · Wᵀ + b` of the propagated features of the same arguments. -/
theorem algebraic : Cert.algebraic_KernelIdeal_ReferenceIdeal := by
  intro m ρ m' ρ' _ hagree
  refine ⟨fun c => Cert.Affine.affine (n := 50000) (Cert.KernelIdeal.Run.feats m c)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v60_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
